-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S14336x4096 : Shape := ⟨2, ![14336, 4096]⟩
abbrev S112x32 : Shape := ⟨2, ![112, 32]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S14336x4096 : S_.BroadcastsInDim S14336x4096 (![] : Fin 0 → Fin S14336x4096.rank)
  reducesTo_S14336x4096_S_d0_1 : S14336x4096.ReducesTo [0, 1] S_
  bcast_S_S112x32 : S_.BroadcastsInDim S112x32 (![] : Fin 0 → Fin S112x32.rank)
  reducesTo_S112x32_S_d0_1 : S112x32.ReducesTo [0, 1] S_

variable [Facts]

def fn {F : FTy → Type} [FloatOps F] (main_arg0 : FVec F S8192x4096 .f32) (main_arg1 : FVec F S14336x4096 .f32) (main_arg2 : FVec F S112x32 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S14336x4096 .f32 := Host.absf main_arg1
  let main_cst_0 : FVec F S_ .f32 := constant S_ .f32 0x7F800000#32
  let main_v5 : FVec F S14336x4096 .f32 := broadcastInDim S14336x4096 ![] bcast_S_S14336x4096 main_cst_0
  let main_v6 : IVec S14336x4096 1 := cmpf .olt main_v4 main_v5
  let main_c_1 : IVec S_ 1 := constantI S_ 1 1#1
  let main_v7 : IVec S_ 1 := (fun x v => Host.reduce IntOp.andi x v reducesTo_S14336x4096_S_d0_1 h_S_) main_v6 main_c_1
  let main_v8 : IVec S_ 1 := andi main_v3 main_v7
  let main_v9 : FVec F S112x32 .f32 := Host.absf main_arg2
  let main_cst_2 : FVec F S_ .f32 := constant S_ .f32 0x7F800000#32
  let main_v10 : FVec F S112x32 .f32 := broadcastInDim S112x32 ![] bcast_S_S112x32 main_cst_2
  let main_v11 : IVec S112x32 1 := cmpf .olt main_v9 main_v10
  let main_c_3 : IVec S_ 1 := constantI S_ 1 1#1
  let main_v12 : IVec S_ 1 := (fun x v => Host.reduce IntOp.andi x v reducesTo_S112x32_S_d0_1 h_S_) main_v11 main_c_3
  let main_v13 : IVec S_ 1 := andi main_v8 main_v12
  main_v13
-- ==== Kernel.lean ====
abbrev S8192x4096 : Shape := ⟨2, ![8192, 4096]⟩
abbrev S14336x4096 : Shape := ⟨2, ![14336, 4096]⟩
abbrev S112x32 : Shape := ⟨2, ![112, 32]⟩
abbrev S112x128x32 : Shape := ⟨3, ![112, 128, 32]⟩
abbrev S14336x32 : Shape := ⟨2, ![14336, 32]⟩
abbrev S8192x14336 : Shape := ⟨2, ![8192, 14336]⟩
abbrev S1024x4096 : Shape := ⟨2, ![1024, 4096]⟩
abbrev S512x4096 : Shape := ⟨2, ![512, 4096]⟩
abbrev S512x32 : Shape := ⟨2, ![512, 32]⟩
abbrev S1024x512 : Shape := ⟨2, ![1024, 512]⟩
abbrev S1024x1024 : Shape := ⟨2, ![1024, 1024]⟩
abbrev S512x1024 : Shape := ⟨2, ![512, 1024]⟩
abbrev S512x8 : Shape := ⟨2, ![512, 8]⟩
abbrev S512x8x1 : Shape := ⟨3, ![512, 8, 1]⟩
abbrev S512x8x128 : Shape := ⟨3, ![512, 8, 128]⟩

abbrev nBuf : Space → Nat
  | .hbm => 8
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S14336x4096, .f32⟩
  | .hbm, ⟨2, _⟩ => ⟨S112x32, .f32⟩
  | .hbm, ⟨3, _⟩ => ⟨S8192x4096, .bf16⟩
  | .hbm, ⟨4, _⟩ => ⟨S14336x4096, .bf16⟩
  | .hbm, ⟨5, _⟩ => ⟨S112x128x32, .f32⟩
  | .hbm, ⟨6, _⟩ => ⟨S14336x32, .f32⟩
  | .hbm, ⟨7, _⟩ => ⟨S8192x14336, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S512x32, .f32⟩
  | .local _ .vmem, ⟨5, _⟩ => ⟨S512x32, .f32⟩
  | .local _ .vmem, ⟨6, _⟩ => ⟨S1024x512, .f32⟩
  | .local _ .vmem, ⟨7, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 28], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  bcast_S112x32_S112x128x32_0_2 : S112x32.BroadcastsInDim S112x128x32 (![0, 2] : Fin 2 → Fin S112x128x32.rank)
  shapeCasts_S112x128x32_S14336x32 : S112x128x32.ShapeCasts S14336x32
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1024x4096_S1024x1024_0_0 : ∀ a, (![0, 0] : Fin 2 → Nat) a + S1024x1024.size a ≤ S1024x4096.size a
  h_S1024x1024 : 0 < S1024x1024.numel
  shapeCasts_S1024x1024_S1024x1024 : S1024x1024.ShapeCasts S1024x1024
  inb_S512x4096_S512x1024_0_0 : ∀ a, (![0, 0] : Fin 2 → Nat) a + S512x1024.size a ≤ S512x4096.size a
  h_S512x1024 : 0 < S512x1024.numel
  shapeCasts_S512x1024_S512x1024 : S512x1024.ShapeCasts S512x1024
  slices_S512x32_o0_0_S512x8 : S512x32.Slices ![0, 0] S512x8
  shapeCasts_S512x8_S512x8x1 : S512x8.ShapeCasts S512x8x1
  shapeCasts_S512x8x1_S512x8x1 : S512x8x1.ShapeCasts S512x8x1
  broadcasts_S512x8x1_S512x8x128 : S512x8x1.Broadcasts S512x8x128
  shapeCasts_S512x8x128_S512x1024 : S512x8x128.ShapeCasts S512x1024
  transposes_S512x1024_p1_0_S1024x512 : S512x1024.Transposes [1, 0] S1024x512
  inb_S1024x4096_S1024x1024_0_1024 : ∀ a, (![0, 1024] : Fin 2 → Nat) a + S1024x1024.size a ≤ S1024x4096.size a
  inb_S512x4096_S512x1024_0_1024 : ∀ a, (![0, 1024] : Fin 2 → Nat) a + S512x1024.size a ≤ S512x4096.size a
  slices_S512x32_o0_8_S512x8 : S512x32.Slices ![0, 8] S512x8
  inb_S1024x4096_S1024x1024_0_2048 : ∀ a, (![0, 2048] : Fin 2 → Nat) a + S1024x1024.size a ≤ S1024x4096.size a
  inb_S512x4096_S512x1024_0_2048 : ∀ a, (![0, 2048] : Fin 2 → Nat) a + S512x1024.size a ≤ S512x4096.size a
  slices_S512x32_o0_16_S512x8 : S512x32.Slices ![0, 16] S512x8
  inb_S1024x4096_S1024x1024_0_3072 : ∀ a, (![0, 3072] : Fin 2 → Nat) a + S1024x1024.size a ≤ S1024x4096.size a
  inb_S512x4096_S512x1024_0_3072 : ∀ a, (![0, 3072] : Fin 2 → Nat) a + S512x1024.size a ≤ S512x4096.size a
  slices_S512x32_o0_24_S512x8 : S512x32.Slices ![0, 24] S512x8
  inb_S1024x512_S1024x512_0_0 : ∀ a, (![0, 0] : Fin 2 → Nat) a + S1024x512.size a ≤ S1024x512.size a
  h_S1024x512 : 0 < S1024x512.numel
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S14336x4096.size a
  hwx0_1 : ∀ i : grid0.Coords, EltTy.bits .bf16 = 32 ∨ (Rect.block (s := S14336x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S14336x32.size a
  hwx0_2 : ∀ i : grid0.Coords, EltTy.bits .f32 = 32 ∨ (Rect.block (s := S14336x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x14336.size a
  hwx0_3 : ∀ i : grid0.Coords, EltTy.bits .f32 = 32 ∨ (Rect.block (s := S8192x14336) S1024x512.size (cc0_transform_3 i) (hinb0_3 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S14336x4096 : Shape := ⟨2, ![14336, 4096]⟩
abbrev S112x32 : Shape := ⟨2, ![112, 32]⟩
abbrev S112x128x32 : Shape := ⟨3, ![112, 128, 32]⟩
abbrev S14336x32 : Shape := ⟨2, ![14336, 32]⟩
abbrev S14336x32x128 : Shape := ⟨3, ![14336, 32, 128]⟩
abbrev S8192x14336 : Shape := ⟨2, ![8192, 14336]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S14336x4096, .f32⟩
  | .hbm, ⟨2, _⟩ => ⟨S112x32, .f32⟩
  | .hbm, ⟨3, _⟩ => ⟨S112x128x32, .f32⟩
  | .hbm, ⟨4, _⟩ => ⟨S14336x32, .f32⟩
  | .hbm, ⟨5, _⟩ => ⟨S14336x32x128, .f32⟩
  | .hbm, ⟨6, _⟩ => ⟨S14336x4096, .f32⟩
  | .hbm, ⟨7, _⟩ => ⟨S14336x4096, .f32⟩
  | .hbm, ⟨8, _⟩ => ⟨S8192x14336, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S112x32_S112x128x32_0_2 : S112x32.BroadcastsInDim S112x128x32 (![0, 2] : Fin 2 → Fin S112x128x32.rank)
  shapeCasts_S112x128x32_S14336x32 : S112x128x32.ShapeCasts S14336x32
  bcast_S14336x32_S14336x32x128_0_1 : S14336x32.BroadcastsInDim S14336x32x128 (![0, 1] : Fin 2 → Fin S14336x32x128.rank)
  shapeCasts_S14336x32x128_S14336x4096 : S14336x32x128.ShapeCasts S14336x4096
  dot_S8192x4096_S14336x4096_S8192x14336_1_1_0_0_n_n_wf : DotDims.WF S8192x4096 S14336x4096 S8192x14336 [1] [1] [0] [0] [] []

variable [Facts₀]

def dot_S8192x4096_S14336x4096_S8192x14336_1_1_0_0_n_n : DotDims S8192x4096 S14336x4096 S8192x14336 where
  lhsContracting := [1]
  rhsContracting := [1]
  lhsNonContracting := [0]
  rhsNonContracting := [0]
  lhsBatch := []
  rhsBatch := []
  wf := dot_S8192x4096_S14336x4096_S8192x14336_1_1_0_0_n_n_wf

class Facts : Prop extends Facts₀ where

variable [Facts]
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.ChunkSum.lean ====
/- A sum over 4096 consecutive indices regrouped as four consecutive runs of 1024, accumulated left to right
   from zero: the order in which a contraction walked in four equal pieces adds its partial sums. Only
   commutativity and associativity of addition are used, so the law holds on the extended reals with no
   finiteness assumption. -/
import Mathlib.Algebra.BigOperators.Fin

open scoped BigOperators

namespace Cert.ChunkSum

variable {M : Type*} [AddCommMonoid M]

/-- A sum over `a + b` indices is the sum over the first `a` plus the sum over the last `b`. -/
theorem sum_split (a b : ℕ) (f : Fin (a + b) → M) :
    ∑ k, f k = ∑ k : Fin a, f ⟨k.val, by omega⟩ + ∑ k : Fin b, f ⟨a + k.val, by omega⟩ := by
  rw [Fin.sum_univ_add]
  rfl

/-- Four runs of 1024: `∑_{k<4096} f k = (((0 + Σ₀) + Σ₁) + Σ₂) + Σ₃` with `Σ_c = ∑_{k<1024} f (1024 c + k)`. -/
theorem sum_four_chunks (f : Fin 4096 → M) :
    ∑ k : Fin 4096, f k =
      (((0 + ∑ k : Fin 1024, f ⟨k.val, by omega⟩) + ∑ k : Fin 1024, f ⟨1024 + k.val, by omega⟩)
        + ∑ k : Fin 1024, f ⟨2048 + k.val, by omega⟩) + ∑ k : Fin 1024, f ⟨3072 + k.val, by omega⟩ := by
  rw [zero_add]
  have h3 := sum_split 3072 1024 f
  have h2 := sum_split 2048 1024 (fun k : Fin 3072 => f ⟨k.val, by omega⟩)
  have h1 := sum_split 1024 1024 (fun k : Fin 2048 => f ⟨k.val, by omega⟩)
  rw [h3, h2, h1]

end Cert.ChunkSum
-- ==== Proof.KernelBlock.lean ====
/- One grid point of the kernel, read at an entry of its output block.

   At a point the body holds a 1024 x 4096 block of activations `x`, a 512 x 4096 block of weights `w` and the
   512 x 32 block `s` of per-row scales (one row of 32 scales for each of the 512 weight rows). It walks the
   4096 columns in four runs of 1024. In run `c` it takes the 1024 columns of `x` and of `w` from column 1024 c
   on and the 8 scale columns from column 8 c on, repeats each of those 8 scale columns 128 times, multiplies the
   weight columns by the repeated scales entry by entry, and adds the product of the activation columns with the
   transpose of that to the accumulator, which starts at zero. Over the extended reals the narrowing and
   widening of the float format are the identity, so entry (p, q) of what the body stores is

       (((0 + Σ₀) + Σ₁) + Σ₂) + Σ₃,   Σ_c = ∑_{k < 1024} x[p, 1024 c + k] * (w[q, 1024 c + k] * s[q, 8 c + k / 128]),

   which is the one sum over all 4096 columns of x[p, k] * (w[q, k] * s[q, k / 128]). -/
import proofs.«111226_j41334765257142_1_alg».proof.Proof.Gen.KernelIdeal.Frame
import proofs.«111226_j41334765257142_1_alg».proof.Proof.LibDotRead
import proofs.«111226_j41334765257142_1_alg».proof.Proof.ChunkSum
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Block

open Cert.KernelIdeal Cert.KernelIdeal.Gen Idealize.ShloMosaic Idealize.ShloMosaic.TcCoe Idealize.ShloMosaic.ValueIdx

theorem zero_off : (![0, 0] : Fin 2 → Nat) = fun _ => 0 := funext fun a => by fin_cases a <;> rfl

/-! ## Layout steps read at an entry -/

/-- Loading `n` consecutive columns from column `o` on, every row kept: entry (p, k) of what is loaded is entry
    (p, o + k) of the block. -/
theorem ld_cols {Val : EltTy → Type} {e : EltTy} {R C n : Nat} (X : (⟨2, ![R, C]⟩ : Shape).Idx → Val e) (o : Nat)
    (inb : ∀ a, (![0, o] : Fin 2 → Nat) a + (![R, n] : Fin 2 → Nat) a ≤ (⟨2, ![R, C]⟩ : Shape).size a)
    (p : Fin R) (k : Fin n) (h : o + k.val < C) :
    View.ld X (Rect.unit (s := ⟨2, ![R, C]⟩) ![0, o] ![R, n] inb) (ix2 p k) = X (ix2 p ⟨o + k.val, h⟩) := by
  show X _ = X _
  congr 1
  funext a
  apply Fin.ext
  match a with
  | ⟨0, _⟩ => show 0 + 1 * p.val = p.val; omega
  | ⟨1, _⟩ => show o + 1 * k.val = o + k.val; omega

/-- Taking 8 consecutive scale columns from column `b` on: entry (q, j) of the slice is entry (q, b + j). -/
theorem slice_cols (s : FVec Ideal S512x32 .f32) (b : Nat) (h : S512x32.Slices ![0, b] S512x8) (q : Fin 512) (j : Fin 8)
    (hb : b + j.val < 32) :
    extractStridedSlice S512x8 ![0, b] s h (ix2 q j) = s (ix2 q ⟨b + j.val, hb⟩) :=
  extractStridedSlice_apply _ s h (ix2 q j) (ix2 q ⟨b + j.val, hb⟩) fun a => by
    match a with
    | ⟨0, _⟩ => show q.val = 0 + q.val; omega
    | ⟨1, _⟩ => rfl

/-- Repeating each of 8 scale columns 128 times (a trailing unit axis, a broadcast of it to 128, and the two trailing
    axes merged into 1024 columns): entry (q, k) of the result is entry (q, k / 128) of the 8 columns. -/
theorem repeat_cols (sc : FVec Ideal S512x8 .f32) (h1 : S512x8.ShapeCasts S512x8x1) (h2 : S512x8x1.ShapeCasts S512x8x1)
    (h3 : S512x8x1.Broadcasts S512x8x128) (h4 : S512x8x128.ShapeCasts S512x1024) (q : Fin 512) (k : Fin 1024) :
    shapeCast S512x1024 (broadcastTo S512x8x128 (shapeCast S512x8x1 (shapeCast S512x8x1 sc h1) h2) h3) h4 (ix2 q k)
      = sc (ix2 q ⟨k.val / 128, by have := k.isLt; omega⟩) := by
  have hk := k.isLt
  rw [shapeCast_self]
  refine (shapeCast_apply _ h4 (ix2 q k)
    (ix3 q (⟨k.val / 128, by omega⟩ : Fin 8) (⟨k.val % 128, by omega⟩ : Fin 128)) (by
      rw [Shape.rowMajor_val_three, Shape.rowMajor_val_two]
      show (q.val * 8 + k.val / 128) * 128 + k.val % 128 = q.val * 1024 + k.val
      omega)).trans ?_
  refine (broadcastTo_apply _ h3 (ix3 q (⟨k.val / 128, by omega⟩ : Fin 8) (⟨k.val % 128, by omega⟩ : Fin 128))
    (ix3 q (⟨k.val / 128, by omega⟩ : Fin 8) (0 : Fin 1)) (fun a => by
      match a with
      | ⟨0, _⟩ => show q.val = if (512 : Nat) = 1 then 0 else q.val; rw [if_neg (by decide)]
      | ⟨1, _⟩ => show k.val / 128 = if (8 : Nat) = 1 then 0 else k.val / 128; rw [if_neg (by decide)]
      | ⟨2, _⟩ => show (0 : Nat) = if (1 : Nat) = 1 then 0 else k.val % 128; rw [if_pos rfl])).trans ?_
  exact shapeCast_apply _ h1 (ix3 q (⟨k.val / 128, by omega⟩ : Fin 8) (0 : Fin 1)) (ix2 q ⟨k.val / 128, by omega⟩) (by
    rw [Shape.rowMajor_val_three, Shape.rowMajor_val_two]
    show q.val * 8 + k.val / 128 = (q.val * 8 + k.val / 128) * 1 + 0
    omega)

/-! ## One run of 1024 columns -/

/-- What one run adds to the accumulator: the activation columns times the transpose of the weight columns scaled by
    the repeated scale columns, accumulated into zero. -/
def chunk (xc : FVec Ideal S1024x1024 .bf16) (wc : FVec Ideal S512x1024 .bf16) (sc : FVec Ideal S512x8 .f32) :
    FVec Ideal S1024x512 .f32 :=
  matmul dot_S1024x1024_S1024x512_S1024x512_1_0_0_1_n_n none xc
    (transpose S1024x512 [1, 0]
      (truncf .bf16 (mulf (extf .f32 wc bitsLt_bf16_f32)
        (shapeCast S512x1024 (broadcastTo S512x8x128 (shapeCast S512x8x1 (shapeCast S512x8x1 sc shapeCasts_S512x8_S512x8x1)
          shapeCasts_S512x8x1_S512x8x1) broadcasts_S512x8x1_S512x8x128) shapeCasts_S512x8x128_S512x1024)) bitsLt_bf16_f32)
      transposes_S512x1024_p1_0_S1024x512)
    (constant S1024x512 .f32 0x00000000#32)

/-- Entry (p, q) of a run: the sum over its 1024 columns of activation times scaled weight. -/
theorem chunk_apply (xc : FVec Ideal S1024x1024 .bf16) (wc : FVec Ideal S512x1024 .bf16) (sc : FVec Ideal S512x8 .f32)
    (p : Fin 1024) (q : Fin 512) :
    chunk xc wc sc (ix2 p q)
      = ∑ k : Fin 1024, xc (ix2 p k) * (wc (ix2 q k) * sc (ix2 q ⟨k.val / 128, by have := k.isLt; omega⟩)) := by
  unfold chunk
  simp only [matmul]
  rw [Ideal.matmul_constant_zero_apply]
  refine (Cert.DotRead.sum_contr_plain dot_S1024x1024_S1024x512_S1024x512_1_0_0_1_n_n_wf _ _ p q).trans ?_
  refine Finset.sum_congr rfl fun k _ => ?_
  refine congrArg (xc (ix2 p k) * ·) ?_
  refine (transpose_ix2_apply _ transposes_S512x1024_p1_0_S1024x512 k q).trans ?_
  show wc (ix2 q k) * _ = _
  refine congrArg (wc (ix2 q k) * ·) ?_
  exact repeat_cols sc _ _ _ _ q k

/-! ## The whole block -/

/-- The summand of the block's entry (p, q) at column `k`. -/
abbrev term (x0 : Vec Ideal S1024x4096 .bf16) (x1 : Vec Ideal S512x4096 .bf16) (x2 : Vec Ideal S512x32 .f32)
    (p : Fin 1024) (q : Fin 512) (k : Fin 4096) : EReal :=
  x0 (ix2 p k) * (x1 (ix2 q k) * x2 (ix2 q ⟨k.val / 128, by have := k.isLt; omega⟩))

/-- The body's stored value: the four runs added to zero, left to right. -/
def acc4 (x0 : Vec Ideal S1024x4096 .bf16) (x1 : Vec Ideal S512x4096 .bf16) (x2 : Vec Ideal S512x32 .f32) :
    FVec Ideal S1024x512 .f32 :=
  addf (addf (addf (addf (broadcast S1024x512 (Scalar.ofBits .f32 0x00000000#32))
      (chunk (View.ld x0 r0_1) (View.ld x1 r0_2) (extractStridedSlice S512x8 ![0, 0] x2 slices_S512x32_o0_0_S512x8)))
      (chunk (View.ld x0 r0_3) (View.ld x1 r0_4) (extractStridedSlice S512x8 ![0, 8] x2 slices_S512x32_o0_8_S512x8)))
      (chunk (View.ld x0 r0_5) (View.ld x1 r0_6) (extractStridedSlice S512x8 ![0, 16] x2 slices_S512x32_o0_16_S512x8)))
      (chunk (View.ld x0 r0_7) (View.ld x1 r0_8) (extractStridedSlice S512x8 ![0, 24] x2 slices_S512x32_o0_24_S512x8))

/-- What the body leaves in the output block is that value: its one store covers the block, the loads of the
    scale block read all of it, and a shape cast to the same shape changes nothing. -/
theorem out_eq (x0 : Vec Ideal S1024x4096 .bf16) (x1 : Vec Ideal S512x4096 .bf16) (x2 : Vec Ideal S512x32 .f32) :
    out0_3 x0 x1 x2 = acc4 x0 x1 x2 := by
  unfold out0_3
  rw [View.canon_unit_zero zero_off]
  unfold acc4 chunk k0_pay1 k0_pay3 k0_pay4 k0_pay5 k0_pay6 k0_pay2
  simp only [shapeCast_self, View.ld_unit_zero (S := S512x32) zero_off]

/-- A run whose columns start at `o = 128 b`, at entry (p, q): the block's summands at columns o .. o + 1023. -/
theorem chunk_term (x0 : Vec Ideal S1024x4096 .bf16) (x1 : Vec Ideal S512x4096 .bf16) (x2 : Vec Ideal S512x32 .f32)
    (o b : Nat) (hob : o = 128 * b) (ho : o + 1024 ≤ 4096)
    (inb0 : ∀ a, (![0, o] : Fin 2 → Nat) a + S1024x1024.size a ≤ S1024x4096.size a)
    (inb1 : ∀ a, (![0, o] : Fin 2 → Nat) a + S512x1024.size a ≤ S512x4096.size a)
    (hs : S512x32.Slices ![0, b] S512x8) (p : Fin 1024) (q : Fin 512) :
    chunk (View.ld x0 (Rect.unit (s := S1024x4096) ![0, o] S1024x1024.size inb0))
        (View.ld x1 (Rect.unit (s := S512x4096) ![0, o] S512x1024.size inb1))
        (extractStridedSlice S512x8 ![0, b] x2 hs) (ix2 p q)
      = ∑ k : Fin 1024, term x0 x1 x2 p q ⟨o + k.val, by have := k.isLt; omega⟩ := by
  rw [chunk_apply]
  refine Finset.sum_congr rfl fun k _ => ?_
  have hk := k.isLt
  have e0 : View.ld x0 (Rect.unit (s := S1024x4096) ![0, o] S1024x1024.size inb0) (ix2 p k)
      = x0 (ix2 p ⟨o + k.val, by omega⟩) := ld_cols (R := 1024) (C := 4096) (n := 1024) x0 o inb0 p k (by omega)
  have e1 : View.ld x1 (Rect.unit (s := S512x4096) ![0, o] S512x1024.size inb1) (ix2 q k)
      = x1 (ix2 q ⟨o + k.val, by omega⟩) := ld_cols (R := 512) (C := 4096) (n := 1024) x1 o inb1 q k (by omega)
  have e2 : extractStridedSlice S512x8 ![0, b] x2 hs (ix2 q (⟨k.val / 128, by omega⟩ : Fin 8))
      = x2 (ix2 q ⟨(o + k.val) / 128, by omega⟩) :=
    (slice_cols x2 b hs q ⟨k.val / 128, by omega⟩ (by show b + k.val / 128 < 32; omega)).trans
      (congrArg (fun j : Fin 32 => x2 (ix2 q j)) (Fin.ext (by show b + k.val / 128 = (o + k.val) / 128; omega)))
  exact congr (congrArg HMul.hMul e0) (congr (congrArg HMul.hMul e1) e2)

/-- ENTRY (p, q) OF THE BLOCK: the sum over all 4096 columns of activation times weight times that weight's
    block scale. The four runs' partial sums, added to zero left to right, are one sum regrouped. -/
theorem out_apply (x0 : Vec Ideal S1024x4096 .bf16) (x1 : Vec Ideal S512x4096 .bf16) (x2 : Vec Ideal S512x32 .f32)
    (p : Fin 1024) (q : Fin 512) :
    out0_3 x0 x1 x2 (ix2 p q) = ∑ k : Fin 4096, term x0 x1 x2 p q k := by
  rw [out_eq, Cert.ChunkSum.sum_four_chunks (term x0 x1 x2 p q)]
  unfold acc4
  have hz : Scalar.ofBits (F := Ideal) .f32 0x00000000#32 = (0 : EReal) := Ideal.ofBits_zero_f32
  have c0 := chunk_term x0 x1 x2 0 0 rfl (by decide) inb_S1024x4096_S1024x1024_0_0 inb_S512x4096_S512x1024_0_0
    slices_S512x32_o0_0_S512x8 p q
  have c1 := chunk_term x0 x1 x2 1024 8 rfl (by decide) inb_S1024x4096_S1024x1024_0_1024 inb_S512x4096_S512x1024_0_1024
    slices_S512x32_o0_8_S512x8 p q
  have c2 := chunk_term x0 x1 x2 2048 16 rfl (by decide) inb_S1024x4096_S1024x1024_0_2048 inb_S512x4096_S512x1024_0_2048
    slices_S512x32_o0_16_S512x8 p q
  have c3 := chunk_term x0 x1 x2 3072 24 rfl (by decide) inb_S1024x4096_S1024x1024_0_3072 inb_S512x4096_S512x1024_0_3072
    slices_S512x32_o0_24_S512x8 p q
  show (((Scalar.ofBits (F := Ideal) .f32 0x00000000#32 + _) + _) + _) + _ = _
  rw [hz]
  refine congr (congrArg HAdd.hAdd (congr (congrArg HAdd.hAdd (congr (congrArg HAdd.hAdd (congrArg (0 + ·) ?_)) c1)) c2)) c3
  refine c0.trans (Finset.sum_congr rfl fun k _ => ?_)
  exact congrArg (term x0 x1 x2 p q) (Fin.ext (by show 0 + k.val = k.val; omega))

end Cert.KernelIdeal.Block

end
-- ==== Proof.Spec.lean ====
/- The function both programs compute, over the extended reals: a linear layer whose weight is stored in
   128 x 128 blocks with one scale per block. For a token row `t` and an output feature `o`

       out[t, o] = ∑_{k < 4096} x[t, k] * (w[o, k] * s[o / 128, k / 128]),

   the weight entry multiplied by its block's scale first, then by the activation, then summed over the 4096
   input features. -/
import Idealize.ShloMosaic.Lib.ValueIdx
import Idealize.ShloMosaic.PureOps.Ideal

noncomputable section

open scoped BigOperators

namespace Cert.Spec

open Idealize.ShloMosaic Idealize.ShloMosaic.ValueIdx

/-- The row of the scale table that serves output feature `o`: features come in groups of 128. -/
abbrev blockRow (o : Fin 14336) : Fin 112 := ⟨o.val / 128, by have := o.isLt; omega⟩

/-- The column of the scale table that serves input feature `k`. -/
abbrev blockCol (k : Fin 4096) : Fin 32 := ⟨k.val / 128, by have := k.isLt; omega⟩

/-- The blockwise-dequantized product: entry (t, o) sums, over the input features, the activation times the
    weight entry scaled by its block's scale. -/
def G (x : (⟨2, ![8192, 4096]⟩ : Shape).Idx → EReal) (w : (⟨2, ![14336, 4096]⟩ : Shape).Idx → EReal)
    (s : (⟨2, ![112, 32]⟩ : Shape).Idx → EReal) : (⟨2, ![8192, 14336]⟩ : Shape).Idx → EReal :=
  fun i => ∑ k : Fin 4096, x (ix2 (i 0) k) * (w (ix2 (i 1) k) * s (ix2 (blockRow (i 1)) (blockCol k)))

end Cert.Spec

end
-- ==== Proof.KernelWhole.lean ====
/- From the kernel's blocks to its whole result.

   The grid has 8 x 28 points; point `t` = (t / 28, t % 28) works on rows 1024 (t / 28) .. of the activations and on
   rows 512 (t % 28) .. of the weights, and writes the 1024 x 512 block of the result at that block row and block
   column. Before the launch the host narrows the activations and the weights (the identity over the extended
   reals) and repeats every row of the 112 x 32 scale table 128 times, so that row `o` of the 14336 x 32 table the
   kernel reads is row `o / 128` of the scales. Each point's block is the specification restricted to the block,
   the 224 blocks tile the 8192 x 14336 result, so the result is the specification. -/
import proofs.«111226_j41334765257142_1_alg».proof.Proof.Gen.KernelIdeal.Value
import proofs.«111226_j41334765257142_1_alg».proof.Proof.KernelBlock
import proofs.«111226_j41334765257142_1_alg».proof.Proof.Spec
import Idealize.ShloMosaic.Lib.StableHlo.Run

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## What the host leaves for the kernel -/

/-- The narrowed activations are the activations. -/
theorem host_x (c : Dev nD) : (V m c main_v0 : S8192x4096.Idx → EReal) = m ((c : Thread nD τ).loc main_arg0) := by
  dsimp only [V, hostOps0]; after_results; rfl

/-- The narrowed weights are the weights. -/
theorem host_w (c : Dev nD) : (V m c main_v1 : S14336x4096.Idx → EReal) = m ((c : Thread nD τ).loc main_arg1) := by
  dsimp only [V, hostOps0]; after_results; rfl

/-- The scale table the kernel reads: the scales with a new middle axis of 128 copies, the first two axes merged. -/
theorem host_s (c : Dev nD) : (V m c main_v3 : S14336x32.Idx → EReal)
    = shapeCast S14336x32 (broadcastInDim S112x128x32 ![0, 2] bcast_S112x32_S112x128x32_0_2
        (m ((c : Thread nD τ).loc main_arg2))) shapeCasts_S112x128x32_S14336x32 := by
  dsimp only [V, hostOps0]; after_results; rfl

/-- Row `o` of that table is row `o / 128` of the scales. -/
theorem host_s_apply (c : Dev nD) (o : Fin 14336) (j : Fin 32) :
    (V m c main_v3 : S14336x32.Idx → EReal) (ix2 o j)
      = m ((c : Thread nD τ).loc main_arg2) (ix2 (⟨o.val / 128, by have := o.isLt; omega⟩ : Fin 112) j) := by
  have ho := o.isLt
  have hj := j.isLt
  rw [host_s]
  refine (shapeCast_apply _ shapeCasts_S112x128x32_S14336x32 (ix2 o j)
    (ix3 (⟨o.val / 128, by omega⟩ : Fin 112) (⟨o.val % 128, by omega⟩ : Fin 128) j) (by
      rw [Shape.rowMajor_val_three, Shape.rowMajor_val_two]
      show (o.val / 128 * 128 + o.val % 128) * 32 + j.val = o.val * 32 + j.val
      omega)).trans ?_
  exact broadcastInDim_apply _ bcast_S112x32_S112x128x32_0_2 _ _ (ix2 (⟨o.val / 128, by omega⟩ : Fin 112) j) (fun a => by
    match a with
    | ⟨0, _⟩ => show o.val / 128 = if (112 : Nat) = 1 then 0 else o.val / 128; rw [if_neg (by decide)]
    | ⟨1, _⟩ => show j.val = if (32 : Nat) = 1 then 0 else j.val; rw [if_neg (by decide)])

/-! ## The blocks at a point -/

/-- The index maps over the grid: point `t` takes block row `t / 28` of the activations, block row `t % 28` of the
    weights and of the scale table, and writes block (t / 28, t % 28) of the result. -/
theorem idx_facts : ∀ t : Fin cfg0.N,
    win0_0.index t (0 : Fin 2) = t.val / 28 ∧ win0_0.index t (1 : Fin 2) = 0
    ∧ win0_1.index t (0 : Fin 2) = t.val % 28 ∧ win0_1.index t (1 : Fin 2) = 0
    ∧ win0_2.index t (0 : Fin 2) = t.val % 28 ∧ win0_2.index t (1 : Fin 2) = 0
    ∧ win0_3.index t (0 : Fin 2) = t.val / 28 ∧ win0_3.index t (1 : Fin 2) = t.val % 28 :=
  (by decide +kernel : ∀ t : Fin grid0.N, _)

/-- The activation block at a point, at (p, k): the activations at row `r` = 1024 (t / 28) + p, column k. -/
theorem x_read (c : Dev nD) (t : Fin cfg0.N) (p : Fin 1024) (k : Fin 4096) (r : Fin 8192)
    (hr : r.val = t.val / 28 * 1024 + p.val) :
    (iblk m c 0 t : Vec Ideal S1024x4096 .bf16) (ix2 p k) = m ((c : Thread nD τ).loc main_arg0) (ix2 r k) := by
  obtain ⟨e00, e01, -⟩ := idx_facts t
  show V m c main_v0 (((cfg0.win 0).blk t).view.emb (ix2 p k)) = _
  refine (congrFun (host_x m c) _).trans ?_
  congr 1
  funext a
  apply Fin.ext
  match a with
  | ⟨0, _⟩ => show win0_0.index t (0 : Fin 2) * 1024 + 1 * p.val = r.val; rw [e00]; omega
  | ⟨1, _⟩ => show win0_0.index t (1 : Fin 2) * 4096 + 1 * k.val = k.val; rw [e01]; omega

/-- The weight block at a point, at (q, k): the weights at row `o` = 512 (t % 28) + q, column k. -/
theorem w_read (c : Dev nD) (t : Fin cfg0.N) (q : Fin 512) (k : Fin 4096) (o : Fin 14336)
    (ho : o.val = t.val % 28 * 512 + q.val) :
    (iblk m c 1 t : Vec Ideal S512x4096 .bf16) (ix2 q k) = m ((c : Thread nD τ).loc main_arg1) (ix2 o k) := by
  obtain ⟨-, -, e10, e11, -⟩ := idx_facts t
  show V m c main_v1 (((cfg0.win 1).blk t).view.emb (ix2 q k)) = _
  refine (congrFun (host_w m c) _).trans ?_
  congr 1
  funext a
  apply Fin.ext
  match a with
  | ⟨0, _⟩ => show win0_1.index t (0 : Fin 2) * 512 + 1 * q.val = o.val; rw [e10]; omega
  | ⟨1, _⟩ => show win0_1.index t (1 : Fin 2) * 4096 + 1 * k.val = k.val; rw [e11]; omega

/-- The scale block at a point, at (q, j): the scale of block row `o / 128` for the weight row `o` = 512 (t % 28) + q,
    at column j. -/
theorem s_read (c : Dev nD) (t : Fin cfg0.N) (q : Fin 512) (j : Fin 32) (o : Fin 14336)
    (ho : o.val = t.val % 28 * 512 + q.val) :
    (iblk m c 2 t : Vec Ideal S512x32 .f32) (ix2 q j)
      = m ((c : Thread nD τ).loc main_arg2) (ix2 (⟨o.val / 128, by have := o.isLt; omega⟩ : Fin 112) j) := by
  obtain ⟨-, -, -, -, e20, e21, -⟩ := idx_facts t
  show V m c main_v3 (((cfg0.win 2).blk t).view.emb (ix2 q j)) = _
  refine Eq.trans ?_ (host_s_apply m c o j)
  congr 1
  funext a
  apply Fin.ext
  match a with
  | ⟨0, _⟩ => show win0_2.index t (0 : Fin 2) * 512 + 1 * q.val = o.val; rw [e20]; omega
  | ⟨1, _⟩ => show win0_2.index t (1 : Fin 2) * 32 + 1 * j.val = j.val; rw [e21]; omega

/-! ## What a point writes back, and the whole result -/

/-- A product of three extended reals changes factor by factor. -/
theorem mul3_congr {a a' b b' d d' : EReal} (ha : a = a') (hb : b = b') (hd : d = d') :
    a * (b * d) = a' * (b' * d') := by rw [ha, hb, hd]

/-- The result as the specification of the three arguments. -/
abbrev result (c : Dev nD) : S8192x14336.Idx → EReal :=
  Cert.Spec.G (m ((c : Thread nD τ).loc main_arg0)) (m ((c : Thread nD τ).loc main_arg1)) (m ((c : Thread nD τ).loc main_arg2))

/-- WHAT POINT `t` WRITES BACK is block `t` of the specification. -/
theorem flushed_eq (c : Dev nD) (t : Fin cfg0.N) :
    (dats m 0 c).flushed 3 t = ((cfg0.win 3).blk t).view.read (Elt Ideal) (result m c) := by
  rw [Cert.KernelIdeal.Value.flushed3]
  funext j
  obtain ⟨p, q, rfl⟩ : ∃ (p : Fin 1024) (q : Fin 512), j = ix2 p q := ⟨j 0, j 1, eq_ix2 j⟩
  show out0_3 (iblk m c 0 t) (iblk m c 1 t) (iblk m c 2 t) (ix2 p q)
    = result m c (((cfg0.win 3).blk t).view.emb (ix2 p q))
  refine (Cert.KernelIdeal.Block.out_apply (iblk m c 0 t) (iblk m c 1 t) (iblk m c 2 t) p q).trans ?_
  obtain ⟨-, -, -, -, -, -, e30, e31⟩ := idx_facts t
  have hp := p.isLt
  have hq := q.isLt
  have ht : t.val < 224 := lt_of_lt_of_eq t.isLt N_0
  -- the entry of the result this block entry lands on
  have hr : (((cfg0.win 3).blk t).view.emb (ix2 p q) (0 : Fin 2)).val = t.val / 28 * 1024 + p.val := by
    show win0_3.index t (0 : Fin 2) * 1024 + 1 * p.val = _; rw [e30]; omega
  have ho : (((cfg0.win 3).blk t).view.emb (ix2 p q) (1 : Fin 2)).val = t.val % 28 * 512 + q.val := by
    show win0_3.index t (1 : Fin 2) * 512 + 1 * q.val = _; rw [e31]; omega
  generalize ((cfg0.win 3).blk t).view.emb (ix2 p q) = i at hr ho
  show _ = Cert.Spec.G _ _ _ i
  unfold Cert.Spec.G
  refine Finset.sum_congr rfl fun k _ => ?_
  have hk := k.isLt
  have ex := x_read m c t p k ⟨(i 0).val, (i 0).isLt⟩ hr
  have ew := w_read m c t q k ⟨(i 1).val, (i 1).isLt⟩ ho
  have es := s_read m c t q ⟨k.val / 128, by omega⟩ ⟨(i 1).val, (i 1).isLt⟩ ho
  exact mul3_congr ex ew es

/-- An entry of the result is in point `t`'s block iff each coordinate is in the block's range on its axis. -/
theorem mem_blk (t : Fin cfg0.N) (i : S8192x14336.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v4).slice (win0_3.rect t)).set ↔ _
  rw [View.set_slice_whole, Rect.mem_set_unit]
  exact Iff.rfl

/-- Every entry of the result is in some point's block: entry (r, o) in that of point 28 (r / 1024) + o / 512. -/
theorem cover (i : S8192x14336.Idx) :
    ∃ t : Fin cfg0.N, (cfg0.win 3).flush t = true ∧ i ∈ ((cfg0.win 3).blk t).view.set := by
  have h0 : (i 0).val < 8192 := (i 0).isLt
  have h1 : (i 1).val < 14336 := (i 1).isLt
  let t : Fin cfg0.N := ⟨(i 0).val / 1024 * 28 + (i 1).val / 512,
    lt_of_lt_of_eq (by omega : (i 0).val / 1024 * 28 + (i 1).val / 512 < 224) N_0.symm⟩
  have htv : t.val = (i 0).val / 1024 * 28 + (i 1).val / 512 := rfl
  obtain ⟨-, -, -, -, -, -, e30, e31⟩ := idx_facts t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    rw [e30, htv]; omega
  | ⟨1, _⟩ =>
    show win0_3.index t (1 : Fin 2) * 512 ≤ (i 1).val ∧ (i 1).val < win0_3.index t (1 : Fin 2) * 512 + 512
    rw [e31, htv]; omega

/-- THE RESULT after the run is the specification of the arguments. -/
theorem final (c : Dev nD) : (dats m 0 c).arrAt 3 cfg0.N = result m c :=
  (dats m 0 c).arrAt_eq_of_cover 3 (result m c) (fun t _ => flushed_eq m c t) cover

/-- The kernel's run: every weakly fair execution ends with the result holding the specification of the arguments,
    the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Whole

end
-- ==== Proof.RefSide.lean ====
/- The reference computes the specification: it repeats every scale 128 times along the output features and
   128 times along the input features (a broadcast and a reshape for each axis), multiplies the weight by that
   table entry by entry, and contracts the activations with the result over the input features. Read at an entry
   (t, o), the repeated table at (o, k) is the scale at (o / 128, k / 128), so the contraction is the
   specification's sum term by term. -/
import proofs.«111226_j41334765257142_1_alg».proof.Proof.Gen.ReferenceIdeal.Read
import proofs.«111226_j41334765257142_1_alg».proof.Proof.Spec

noncomputable section

open scoped BigOperators

namespace Cert.RefSide

open Cert.ReferenceIdeal Cert.ReferenceIdeal.Read Idealize.ShloMosaic Idealize.ShloMosaic.ValueIdx

/-- The reference's result, as a function of its three arguments, is the specification. -/
theorem ref_is_spec (x0 : (⟨S8192x4096, .f32⟩ : BufTy).Contents (Elt Ideal))
    (x1 : (⟨S14336x4096, .f32⟩ : BufTy).Contents (Elt Ideal)) (x2 : (⟨S112x32, .f32⟩ : BufTy).Contents (Elt Ideal)) :
    val_main_v5 (F := Ideal) x0 x1 x2 = Cert.Spec.G x0 x1 x2 := by
  funext i
  rw [val_main_v5_apply]
  unfold Cert.Spec.G
  refine Finset.sum_congr rfl fun k _ => ?_
  rw [val_main_v4_apply, val_main_v3_apply, val_main_v2_apply, val_main_v1_apply, val_main_v0_apply]
  have hi1 : (i 1).val < 14336 := (i 1).isLt
  have hk : k.val < 4096 := k.isLt
  -- the activation is read at (t, k), the weight at (o, k)
  have e0 : lidx_main_v5 i k = ix2 (i 0) k :=
    funext fun a => Fin.ext (by match a with | ⟨0, _⟩ => rfl | ⟨1, _⟩ => rfl)
  have e1 : ridx_main_v5 i k = ix2 (i 1) k :=
    funext fun a => Fin.ext (by match a with | ⟨0, _⟩ => rfl | ⟨1, _⟩ => rfl)
  -- the twice-repeated scale table at (o, k) is the scale at (o / 128, k / 128)
  have e2 : idx_main_v0 (idx_main_v1 (idx_main_v2 (idx_main_v3 (ridx_main_v5 i k))))
      = ix2 (Cert.Spec.blockRow (i 1)) (Cert.Spec.blockCol k) :=
    funext fun a => Fin.ext (by
      match a with
      | ⟨0, _⟩ =>
        show (((i 1).val * 4096 + k.val) / 4096 * 32 + ((i 1).val * 4096 + k.val) / 128 % 32) / 4096 = (i 1).val / 128
        omega
      | ⟨1, _⟩ =>
        show (((i 1).val * 4096 + k.val) / 4096 * 32 + ((i 1).val * 4096 + k.val) / 128 % 32) % 32 = k.val / 128
        omega)
  rw [e0, e1, e2]
  rfl

end Cert.RefSide

end
-- ==== Proof.lean ====
/- A linear layer with a blockwise-scaled weight, against its plain reference, over the extended reals.

   Both programs take activations x [8192, 4096], a weight w [14336, 4096] and scales s [112, 32], one scale for each
   128 x 128 block of the weight, and return out[t, o] = ∑_{k < 4096} x[t, k] * (w[o, k] * s[o / 128, k / 128]).

   The reference repeats the scales 128 times along both axes, multiplies the weight by that table and contracts the
   activations with the product over the input features. The kernel repeats the scales along the output features only,
   on the host, and works on a grid of 8 x 28 blocks of the result: at a block it walks the 4096 input features in four
   runs of 1024, repeating the run's 8 scale columns 128 times each, scaling the run's weight columns by them and
   adding the product of the activation columns with the transpose of that to an accumulator that starts at zero.
   Over the extended reals the changes of float format are the identity and a matrix product into a zero accumulator
   is the plain sum of products, so both programs compute the same sum, the kernel's regrouped as zero plus four partial
   sums: only commutativity and associativity of addition are needed, and the finiteness of the inputs is never used.
   The kernel's 224 blocks tile the result, so the whole result is that function; nothing was rewritten in the
   idealized kernel, so there is nothing for it to preserve beyond its own text. -/
import proofs.«111226_j41334765257142_1_alg».proof.Defs
import proofs.«111226_j41334765257142_1_alg».proof.Proof.Gen.Kernel
import proofs.«111226_j41334765257142_1_alg».proof.Proof.Gen.Kernel.Skeleton
import proofs.«111226_j41334765257142_1_alg».proof.Proof.Gen.Kernel.Launch
import proofs.«111226_j41334765257142_1_alg».proof.Proof.Gen.Kernel.Points
import proofs.«111226_j41334765257142_1_alg».proof.Proof.Gen.Kernel.Frame
import proofs.«111226_j41334765257142_1_alg».proof.Proof.Gen.KernelIdeal
import proofs.«111226_j41334765257142_1_alg».proof.Proof.Gen.KernelIdeal.Skeleton
import proofs.«111226_j41334765257142_1_alg».proof.Proof.Gen.KernelIdeal.Launch
import proofs.«111226_j41334765257142_1_alg».proof.Proof.Gen.KernelIdeal.Points
import proofs.«111226_j41334765257142_1_alg».proof.Proof.Gen.KernelIdeal.Frame
import proofs.«111226_j41334765257142_1_alg».proof.Proof.Gen.KernelIdeal.Value
import proofs.«111226_j41334765257142_1_alg».proof.Proof.Gen.ReferenceIdeal
import proofs.«111226_j41334765257142_1_alg».proof.Proof.Gen.ReferenceIdeal.Run
import proofs.«111226_j41334765257142_1_alg».proof.Proof.Gen.ReferenceIdeal.Read
import proofs.«111226_j41334765257142_1_alg».proof.Proof.Gen.Pre_finite_inputs
import proofs.«111226_j41334765257142_1_alg».proof.Proof.KernelWhole
import proofs.«111226_j41334765257142_1_alg».proof.Proof.RefSide
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is six host operations in a row: its run ends, with the arguments as they were. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From memories that agree on the three arguments, the kernel's result and the reference's are the same function of
    them: the blockwise-scaled product, entry by entry. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v5_eq, Cert.RefSide.ref_is_spec,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
